-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S8x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8x4096 .f32) (main_arg1 : IVec S11008x4096 32) (main_arg2 : FVec F S11008x1 .f32) (main_arg3 : IVec S11008x1 32) (main_arg4 : FVec F S11008 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S8x4096 : Shape := ⟨2, ![8, 4096]⟩
abbrev S11008x4096 : Shape := ⟨2, ![11008, 4096]⟩
abbrev S11008x1 : Shape := ⟨2, ![11008, 1]⟩
abbrev S11008 : Shape := ⟨1, ![11008]⟩
abbrev S1x11008 : Shape := ⟨2, ![1, 11008]⟩
abbrev S8x11008 : Shape := ⟨2, ![8, 11008]⟩
abbrev S256x4096 : Shape := ⟨2, ![256, 4096]⟩
abbrev S1x256 : Shape := ⟨2, ![1, 256]⟩
abbrev S8x256 : Shape := ⟨2, ![8, 256]⟩
abbrev S8x1 : Shape := ⟨2, ![8, 1]⟩
abbrev S8 : Shape := ⟨1, ![8]⟩

abbrev nBuf : Space → Nat
  | .hbm => 11
  | .vmem => 14
  | .smem => 0
  | _ => 0

abbrev bufTy : (tb : Table) → Fin (tcTables nBuf tb) → BufTy
  | .hbm, ⟨0, _⟩ => ⟨S8x4096, .f32⟩
  | .hbm, ⟨1, _⟩ => ⟨S11008x4096, .i32⟩
  | .hbm, ⟨2, _⟩ => ⟨S11008x1, .f32⟩
  | .hbm, ⟨3, _⟩ => ⟨S11008x1, .i32⟩
  | .hbm, ⟨4, _⟩ => ⟨S11008, .f32⟩
  | .hbm, ⟨5, _⟩ => ⟨S1x11008, .f32⟩
  | .hbm, ⟨6, _⟩ => ⟨S11008x1, .f32⟩
  | .hbm, ⟨7, _⟩ => ⟨S11008x1, .f32⟩
  | .hbm, ⟨8, _⟩ => ⟨S1x11008, .f32⟩
  | .hbm, ⟨9, _⟩ => ⟨S1x11008, .f32⟩
  | .hbm, ⟨10, _⟩ => ⟨S8x11008, .f32⟩
  | .local _ .vmem, ⟨0, _⟩ => ⟨S8x4096, .f32⟩
  | .local _ .vmem, ⟨1, _⟩ => ⟨S256x4096, .i32⟩
  | .local _ .vmem, ⟨2, _⟩ => ⟨S256x4096, .i32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S8x256, .f32⟩
  | .local _ .vmem, ⟨10, _⟩ => ⟨S8x256, .f32⟩
  | .local _ .vmem, ⟨11, _⟩ => ⟨S8x4096, .bf16⟩
  | .local _ .vmem, ⟨12, _⟩ => ⟨S8x4096, .bf16⟩
  | .local _ .vmem, ⟨13, _⟩ => ⟨S8x1, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S11008x1_S1x11008 : S11008x1.ShapeCasts S1x11008
  shapeCasts_S11008_S1x11008 : S11008.ShapeCasts S1x11008
  inb_S8x4096_S8x4096_0_0 : ∀ a, (![0, 0] : Fin 2 → Nat) a + S8x4096.size a ≤ S8x4096.size a
  h_S8x4096 : 0 < S8x4096.numel
  bitsLt_bf16_f32 : FTy.bits .bf16 < FTy.bits .f32
  shapeCasts_S8x4096_S8x4096 : S8x4096.ShapeCasts S8x4096
  packedbf16_S8x4096_S8x4096_0_0 : (Rect.unit (s := S8x4096) ![0, 0] S8x4096.size inb_S8x4096_S8x4096_0_0).PackedRows (EltTy.packing .bf16)
  reduces_S8x4096_S8 : S8x4096.Reduces [1] S8
  shapeCasts_S8_S8x1 : S8.ShapeCasts S8x1
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  broadcasts_S8x1_S8x256 : S8x1.Broadcasts S8x256
  inb_S8x256_S8x256_0_0 : ∀ a, (![0, 0] : Fin 2 → Nat) a + S8x256.size a ≤ S8x256.size a
  h_S8x256 : 0 < S8x256.numel
  dot_S8x4096_S256x4096_S8x256_1_1_0_0_n_n_wf : DotDims.WF S8x4096 S256x4096 S8x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x4096.size a
  hwx0_0 : ∀ i : grid0.Coords, EltTy.bits .f32 = 32 ∨ (Rect.block (s := S8x4096) S8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256.size a ≤ S8x11008.size a
  hwx0_5 : ∀ i : grid0.Coords, EltTy.bits .f32 = 32 ∨ (Rect.block (s := S8x11008) S8x256.size (cc0_transform_5 i) (hinb0_5 i)).WholeWords (EltTy.packing .f32)

variable [Facts₀]

def dot_S8x4096_S256x4096_S8x256_1_1_0_0_n_n : DotDims S8x4096 S256x4096 S8x256 where
  lhsContracting := [1]
  rhsContracting := [1]
  lhsNonContracting := [0]
  rhsNonContracting := [0]
  lhsBatch := []
  rhsBatch := []
  wf := dot_S8x4096_S256x4096_S8x256_1_1_0_0_n_n_wf

abbrev win0_0 : Pipeline.Window sig grid0 :=
  Pipeline.Window.ofSpec (Memref.whole main_arg0) S8x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S8x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096 : Shape := ⟨2, ![8, 4096]⟩
abbrev S11008x4096 : Shape := ⟨2, ![11008, 4096]⟩
abbrev S11008x1 : Shape := ⟨2, ![11008, 1]⟩
abbrev S11008 : Shape := ⟨1, ![11008]⟩
abbrev S8x11008 : Shape := ⟨2, ![8, 11008]⟩
abbrev S1x11008 : Shape := ⟨2, ![1, 11008]⟩

abbrev nBuf : Space → Nat
  | .hbm => 15
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S11008x4096, .i32⟩
  | .hbm, ⟨2, _⟩ => ⟨S11008x1, .f32⟩
  | .hbm, ⟨3, _⟩ => ⟨S11008x1, .i32⟩
  | .hbm, ⟨4, _⟩ => ⟨S11008, .f32⟩
  | .hbm, ⟨5, _⟩ => ⟨S11008x4096, .f32⟩
  | .hbm, ⟨6, _⟩ => ⟨S11008x1, .f32⟩
  | .hbm, ⟨7, _⟩ => ⟨S11008x4096, .f32⟩
  | .hbm, ⟨8, _⟩ => ⟨S11008x4096, .f32⟩
  | .hbm, ⟨9, _⟩ => ⟨S11008x4096, .f32⟩
  | .hbm, ⟨10, _⟩ => ⟨S11008x4096, .f32⟩
  | .hbm, ⟨11, _⟩ => ⟨S8x11008, .f32⟩
  | .hbm, ⟨12, _⟩ => ⟨S1x11008, .f32⟩
  | .hbm, ⟨13, _⟩ => ⟨S8x11008, .f32⟩
  | .hbm, ⟨14, _⟩ => ⟨S8x11008, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S11008x1_S11008x4096_0_1 : S11008x1.BroadcastsInDim S11008x4096 (![0, 1] : Fin 2 → Fin S11008x4096.rank)
  bcast_S11008_S1x11008_1 : S11008.BroadcastsInDim S1x11008 (![1] : Fin 1 → Fin S1x11008.rank)
  bcast_S1x11008_S8x11008_0_1 : S1x11008.BroadcastsInDim S8x11008 (![0, 1] : Fin 2 → Fin S8x11008.rank)
  dot_S8x4096_S11008x4096_S8x11008_1_1_0_0_n_n_wf : DotDims.WF S8x4096 S11008x4096 S8x11008 [1] [1] [0] [0] [] []

variable [Facts₀]

def dot_S8x4096_S11008x4096_S8x11008_1_1_0_0_n_n : DotDims S8x4096 S11008x4096 S8x11008 where
  lhsContracting := [1]
  rhsContracting := [1]
  lhsNonContracting := [0]
  rhsNonContracting := [0]
  lhsBatch := []
  rhsBatch := []
  wf := dot_S8x4096_S11008x4096_S8x11008_1_1_0_0_n_n_wf

class Facts : Prop extends Facts₀ where

variable [Facts]
-- ==== Proof.Pieces.lean ====
/-
  What one run of the kernel body leaves behind, as pure functions of what it read.

  At the grid's first point the body fills its three scratch buffers from the activations block `x` — a copy of `x`,
  the residual `x − copy`, and the row sums of `x` — each by one store of the whole buffer; at every point it then
  stores the whole output block, computed from the weight tile, the three row blocks (scale, zero-point·scale, bias) and
  the scratch contents: those it has just stored (first point), or those the point before left (every other point).
  Each buffer's final contents is therefore the one stored value, read back through the whole-buffer rectangle.
-/
import proofs.«412487_j30313879175844_3_alg».proof.Proof.Gen.KernelIdeal.Frame
import Idealize.ShloMosaic.Lib.Pipeline.Value
import Idealize.ShloMosaic.Lib.Tactic

noncomputable section

namespace Cert.QuantLinear.Kernel

open Cert.KernelIdeal Cert.KernelIdeal.Gen Idealize.ShloMosaic Idealize.ShloMosaic.TcCoe Idealize.SL.Sem

variable {F : FTy → Type} [FloatOps F]
variable (c : Dev nD) (i : grid0.Coords) (arg1 : Memref sig .tc .vmem S8x4096 .f32) (harg1 : arg1.IsWhole)
  (arg2 : Memref sig .tc .vmem S256x4096 .i32) (harg2 : arg2.IsWhole) (arg3 : Memref sig .tc .vmem S1x256 .f32) (harg3 : arg3.IsWhole)
  (arg4 : Memref sig .tc .vmem S1x256 .f32) (harg4 : arg4.IsWhole) (arg5 : Memref sig .tc .vmem S1x256 .f32) (harg5 : arg5.IsWhole)
  (arg6 : Memref sig .tc .vmem S8x256 .f32) (harg6 : arg6.IsWhole) (arg7 : Memref sig .tc .vmem S8x4096 .bf16) (harg7 : arg7.IsWhole)
  (arg8 : Memref sig .tc .vmem S8x4096 .bf16) (harg8 : arg8.IsWhole) (arg9 : Memref sig .tc .vmem S8x1 .f32) (harg9 : arg9.IsWhole)
  (x0 : Vec F S8x4096 .f32) (x1 : Vec F S256x4096 .i32) (x2 : Vec F S1x256 .f32) (x3 : Vec F S1x256 .f32) (x4 : Vec F S1x256 .f32)

/-- The whole-buffer rectangle starts at the origin. -/
theorem origin2 : (![0, 0] : Fin 2 → Nat) = fun _ => 0 := funext fun a => by fin_cases a <;> rfl

/-- First point: the first scratch ends as the copy of `x`. -/
theorem copy_first (hc0 : cond0_0 i) :
    sout0_A_0 c i arg1 harg1 arg2 harg2 arg3 harg3 arg4 harg4 arg5 harg5 arg6 harg6 arg7 harg7 arg8 harg8 arg9 harg9 hc0 x0 x1 x2 x3 x4 = k0_pay1 x0 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero origin2]
  simp only [View.readAt_eq_ld, harg1.read_unread, View.ld_unit_zero (S := S8x4096) origin2]

/-- First point: the second scratch ends as the residual of `x` against its copy. -/
theorem residual_first (hc0 : cond0_0 i) :
    sout0_A_1 c i arg1 harg1 arg2 harg2 arg3 harg3 arg4 harg4 arg5 harg5 arg6 harg6 arg7 harg7 arg8 harg8 arg9 harg9 hc0 x0 x1 x2 x3 x4 = k0_pay2 x0 := by
  unfold sout0_A_1
  rw [View.read_writes_eq_canon _ _ _ (scover0_A_1 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero origin2]
  simp only [View.readAt_eq_ld, harg1.read_unread, View.ld_unit_zero (S := S8x4096) origin2]

/-- First point: the third scratch ends as the row sums of `x`. -/
theorem rowsum_first (hc0 : cond0_0 i) :
    sout0_A_2 c i arg1 harg1 arg2 harg2 arg3 harg3 arg4 harg4 arg5 harg5 arg6 harg6 arg7 harg7 arg8 harg8 arg9 harg9 hc0 x0 x1 x2 x3 x4 = k0_pay3 x0 := by
  unfold sout0_A_2
  rw [View.read_writes_eq_canon _ _ _ (scover0_A_2 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero origin2]
  simp only [View.readAt_eq_ld, harg1.read_unread, View.ld_unit_zero (S := S8x4096) origin2]

/-- First point: the output block is computed from the scratch contents the body has just stored. -/
theorem block_first (hc0 : cond0_0 i) :
    out0_A_5 c i arg1 harg1 arg2 harg2 arg3 harg3 arg4 harg4 arg5 harg5 arg6 harg6 arg7 harg7 arg8 harg8 arg9 harg9 hc0 x0 x1 x2 x3 x4 = k0_pay4 x1 (k0_pay1 x0) (k0_pay2 x0) x2 (k0_pay3 x0) x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero origin2]
  simp only [View.readAt_eq_ld, harg1.read_unread, harg2.read_unread, harg3.read_unread, harg4.read_unread, harg5.read_unread,
    View.ld_unit_zero (S := S8x4096) origin2, View.ld_unit_zero (S := S256x4096) origin2, View.ld_unit_zero (S := S1x256) origin2,
    View.readCov_unit_zero (S := S8x4096) _ origin2, View.readCov_unit_zero (S := S8x1) _ origin2]

/-- Every later point: the output block is computed from the scratch contents `xs·` the point before left. -/
theorem block_later (hc0 : ¬cond0_0 i) (xs0 xs1 : Vec F S8x4096 .bf16) (xs2 : Vec F S8x1 .f32) :
    out0_B_5 c i arg1 harg1 arg2 harg2 arg3 harg3 arg4 harg4 arg5 harg5 arg6 harg6 arg7 harg7 arg8 harg8 arg9 harg9 hc0 x0 x1 x2 x3 x4 xs0 xs1 xs2 = k0_pay4 x1 xs0 xs1 x2 xs2 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 xs0 xs1 xs2)]
  unfold kernelRun0_B
  dsimp only
  sl_unfold_words
  rw [View.canon_unit_zero origin2]
  simp only [View.readAt_eq_ld, harg2.read_unread, harg3.read_unread, harg4.read_unread, harg5.read_unread, harg7.read_unread,
    harg8.read_unread, harg9.read_unread,
    View.ld_unit_zero (S := S8x4096) origin2, View.ld_unit_zero (S := S256x4096) origin2, View.ld_unit_zero (S := S1x256) origin2,
    View.ld_unit_zero (S := S8x1) origin2]

end Cert.QuantLinear.Kernel

end
-- ==== Proof.Carried.lean ====
/-
  The scratch buffers are filled once and then only read.

  Induction over the grid's 43 points.  The first point stores into the three scratch buffers the copy, the residual and
  the row sums of the activations block it sees (the activations window is the whole array at every point); every later
  point stores nothing into them, so after ANY point they hold what the first point stored, and the output block a point
  leaves is the output payload of that point's weight tile and row blocks with those three values.
-/
import proofs.«412487_j30313879175844_3_alg».proof.Proof.Pieces

noncomputable section

namespace Cert.QuantLinear.Kernel

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The blocks a point sees, each at its literal type: activations, weight tile, scale row, zero-point·scale row, bias row. -/
abbrev actBlk (c : Dev nD) (t : Fin cfg0.N) : Vec F S8x4096 .f32 := iblk m c 0 t
abbrev wgtBlk (c : Dev nD) (t : Fin cfg0.N) : Vec F S256x4096 .i32 := iblk m c 1 t
abbrev sclBlk (c : Dev nD) (t : Fin cfg0.N) : Vec F S1x256 .f32 := iblk m c 2 t
abbrev zpsBlk (c : Dev nD) (t : Fin cfg0.N) : Vec F S1x256 .f32 := iblk m c 3 t
abbrev biaBlk (c : Dev nD) (t : Fin cfg0.N) : Vec F S1x256 .f32 := iblk m c 4 t

theorem first_lt : 0 < cfg0.N := by rw [show cfg0.N = 43 from N_0]; decide

/-- The grid's first point. -/
abbrev firstPt : Fin cfg0.N := ⟨0, first_lt⟩

/-- What every point leaves: the output payload of its own blocks over the first point's three scratch values, and those
    three values themselves. -/
def leaves (c : Dev nD) (t : Fin cfg0.N) : Vec F S8x256 .f32 × Vec F S8x4096 .bf16 × Vec F S8x4096 .bf16 × Vec F S8x1 .f32 :=
  (k0_pay4 (wgtBlk m c t) (k0_pay1 (actBlk m c firstPt)) (k0_pay2 (actBlk m c firstPt)) (sclBlk m c t)
      (k0_pay3 (actBlk m c firstPt)) (zpsBlk m c t) (biaBlk m c t),
    k0_pay1 (actBlk m c firstPt), k0_pay2 (actBlk m c firstPt), k0_pay3 (actBlk m c firstPt))

/-- After point `n` the output's staging buffer and the three scratch buffers hold `leaves` — by induction on the point. -/
theorem contents_eq (c : Dev nD) : ∀ (n : ℕ) (h : n < cfg0.N), outsAt0 m c n h = leaves m c ⟨n, h⟩
  | 0, h => by
    rw [outsAt0_A m c ⟨0, h⟩ rfl, block_first, copy_first, residual_first, rowsum_first]
    rfl
  | n + 1, h => by
    have hN : cfg0.N = 43 := N_0
    have hB : ¬(⟨n + 1, h⟩ : Fin cfg0.N).val % 43 = 0 := by dsimp only; omega
    have ih := contents_eq c n (Nat.lt_of_succ_lt h)
    rw [outsAt0_B m c ⟨n + 1, h⟩ hB, block_later]
    unfold sout0_B_0 sout0_B_1 sout0_B_2
    dsimp only [Nat.add_one_sub_one]
    rw [ih]
    rfl

end Cert.QuantLinear.Kernel

end
-- ==== Proof.Reads.lean ====
/-
  What each window's block holds, entry by entry, in terms of the argument arrays.

  Point `t` of the grid sees: the whole activations array (block (0, 0) at every point); rows `256·t … 256·t + 255`
  of the weight matrix; and columns `256·t … 256·t + 255` of three rows that the host wrote before the launch —
  the scale column laid out as a row, the product (zero point as a float) · scale laid out as a row, and the bias laid
  out as a row.  A block's coordinate is always index × size + the coordinate inside the block.
-/
import proofs.«412487_j30313879175844_3_alg».proof.Proof.Carried
import Idealize.ShloMosaic.Lib.ValueIdx
import Idealize.ShloMosaic.Lib.StableHlo.Run

noncomputable section

namespace Cert.QuantLinear.Kernel

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- The index maps, decided once over the 43 points: the activations block never moves; the weight tile moves down the
    rows with the point; the three rows and the output move along the columns with the point. -/
theorem index_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-- The output channel that column `j` of point `t`'s tile is. -/
def chan (t : Fin cfg0.N) (j : Fin 256) : Fin 11008 :=
  ⟨256 * t.val + j.val, by have h : t.val < 43 := lt_of_lt_of_eq t.isLt N_0; have := j.isLt; omega⟩

/-! ## The three rows the host writes before the launch -/

/-- The scale column, laid out as a row. -/
theorem scale_row (c : Dev nD) : (V m c main_v0 : S1x11008.Idx → Elt F .f32)
    = shapeCast S1x11008 (m ((c : Thread nD τ).loc main_arg2)) shapeCasts_S11008x1_S1x11008 := by
  dsimp only [Gen.V, Gen.hostOps0]
  after_results
  rfl

/-- The zero point, converted to a float and multiplied by the scale, laid out as a row. -/
theorem zps_row (c : Dev nD) : (V m c main_v3 : S1x11008.Idx → Elt F .f32)
    = shapeCast S1x11008 (mulf (sitofp .f32 (m ((c : Thread nD τ).loc main_arg3))) (m ((c : Thread nD τ).loc main_arg2)))
        shapeCasts_S11008x1_S1x11008 := by
  dsimp only [Gen.V, Gen.hostOps0]
  after_results
  rfl

/-- The bias, laid out as a row. -/
theorem bias_row (c : Dev nD) : (V m c main_v4 : S1x11008.Idx → Elt F .f32)
    = shapeCast S1x11008 (m ((c : Thread nD τ).loc main_arg4)) shapeCasts_S11008_S1x11008 := by
  dsimp only [Gen.V, Gen.hostOps0]
  after_results
  rfl

/-- A column `[n, 1]` laid out as a row `[1, n]` reads, at `(0, o)`, the column at `(o, 0)`. -/
theorem column_as_row_apply {α : Type} {n : ℕ} (v : (⟨2, ![n, 1]⟩ : Shape).Idx → α)
    (h : (⟨2, ![n, 1]⟩ : Shape).ShapeCasts ⟨2, ![1, n]⟩) (o : Fin n) :
    shapeCast ⟨2, ![1, n]⟩ v h (ix2 (0 : Fin 1) o) = v (ix2 o (0 : Fin 1)) :=
  shapeCast_apply v h _ _ (by
    rw [Shape.rowMajor_val_two, Shape.rowMajor_val_two]
    show o.val * 1 + 0 = 0 * n + o.val
    omega)

/-- A vector `[n]` laid out as a row `[1, n]` reads, at `(0, o)`, the vector at `o`. -/
theorem vector_as_row_apply {α : Type} {n : ℕ} (v : (⟨1, ![n]⟩ : Shape).Idx → α)
    (h : (⟨1, ![n]⟩ : Shape).ShapeCasts ⟨2, ![1, n]⟩) (o : Fin n) :
    shapeCast ⟨2, ![1, n]⟩ v h (ix2 (0 : Fin 1) o) = v (ix1 o) :=
  shapeCast_apply v h _ _ (by
    rw [Shape.rowMajor_val_two, Shape.rowMajor_val_one]
    show o.val = 0 * n + o.val
    omega)

/-! ## The blocks, entry by entry -/

/-- The activations block at any point is the activations array. -/
theorem act_read (c : Dev nD) (t : Fin cfg0.N) (p : Fin 8) (k : Fin 4096) :
    actBlk m c t (ix2 p k) = m ((c : Thread nD τ).loc main_arg0) (ix2 p k) := by
  obtain ⟨e0, e1, -⟩ := index_facts t
  show V m c main_arg0 (((cfg0.win 0).blk t).view.emb (ix2 p k)) = _
  refine (congrFun (V_main_arg0 m c) _).trans (congrArg _ (funext fun a => Fin.ext ?_))
  match a with
  | ⟨0, _⟩ => show win0_0.index t (0 : Fin 2) * 8 + 1 * p.val = p.val; omega
  | ⟨1, _⟩ => show win0_0.index t (1 : Fin 2) * 4096 + 1 * k.val = k.val; omega

/-- The weight tile at point `t`, row `j`, is row `256·t + j` of the weight matrix. -/
theorem wgt_read (c : Dev nD) (t : Fin cfg0.N) (j : Fin 256) (k : Fin 4096) :
    wgtBlk m c t (ix2 j k) = m ((c : Thread nD τ).loc main_arg1) (ix2 (chan t j) k) := by
  obtain ⟨-, -, e0, e1, -⟩ := index_facts t
  show V m c main_arg1 (((cfg0.win 1).blk t).view.emb (ix2 j k)) = _
  refine (congrFun (V_main_arg1 m c) _).trans (congrArg _ (funext fun a => Fin.ext ?_))
  match a with
  | ⟨0, _⟩ => show win0_1.index t (0 : Fin 2) * 256 + 1 * j.val = 256 * t.val + j.val; omega
  | ⟨1, _⟩ => show win0_1.index t (1 : Fin 2) * 4096 + 1 * k.val = k.val; omega

/-- The scale row's block at point `t`, column `j`, is the scale of channel `256·t + j`. -/
theorem scl_read (c : Dev nD) (t : Fin cfg0.N) (j : Fin 256) :
    sclBlk m c t (ix2 (0 : Fin 1) j) = m ((c : Thread nD τ).loc main_arg2) (ix2 (chan t j) (0 : Fin 1)) := by
  obtain ⟨-, -, -, -, e0, e1, -⟩ := index_facts t
  show V m c main_v0 (((cfg0.win 2).blk t).view.emb (ix2 (0 : Fin 1) j)) = _
  have hi : ((cfg0.win 2).blk t).view.emb (ix2 (0 : Fin 1) j) = ix2 (0 : Fin 1) (chan t j) := funext fun a => Fin.ext (by
    match a with
    | ⟨0, _⟩ => show win0_2.index t (0 : Fin 2) * 1 + 1 * 0 = 0; omega
    | ⟨1, _⟩ => show win0_2.index t (1 : Fin 2) * 256 + 1 * j.val = 256 * t.val + j.val; omega)
  rw [hi]
  exact (congrFun (scale_row m c) _).trans (column_as_row_apply _ _ (chan t j))

/-- The zero-point·scale row's block at point `t`, column `j`: the zero point of channel `256·t + j` as a float, times
    that channel's scale. -/
theorem zps_read (c : Dev nD) (t : Fin cfg0.N) (j : Fin 256) :
    zpsBlk m c t (ix2 (0 : Fin 1) j)
      = FloatOps.mulf (FloatOps.sitofp .f32 (m ((c : Thread nD τ).loc main_arg3) (ix2 (chan t j) (0 : Fin 1))))
          (m ((c : Thread nD τ).loc main_arg2) (ix2 (chan t j) (0 : Fin 1))) := by
  obtain ⟨-, -, -, -, -, -, e0, e1, -⟩ := index_facts t
  show V m c main_v3 (((cfg0.win 3).blk t).view.emb (ix2 (0 : Fin 1) j)) = _
  have hi : ((cfg0.win 3).blk t).view.emb (ix2 (0 : Fin 1) j) = ix2 (0 : Fin 1) (chan t j) := funext fun a => Fin.ext (by
    match a with
    | ⟨0, _⟩ => show win0_3.index t (0 : Fin 2) * 1 + 1 * 0 = 0; omega
    | ⟨1, _⟩ => show win0_3.index t (1 : Fin 2) * 256 + 1 * j.val = 256 * t.val + j.val; omega)
  rw [hi]
  exact (congrFun (zps_row m c) _).trans (column_as_row_apply _ _ (chan t j))

/-- The bias row's block at point `t`, column `j`, is the bias of channel `256·t + j`. -/
theorem bia_read (c : Dev nD) (t : Fin cfg0.N) (j : Fin 256) :
    biaBlk m c t (ix2 (0 : Fin 1) j) = m ((c : Thread nD τ).loc main_arg4) (ix1 (chan t j)) := by
  obtain ⟨-, -, -, -, -, -, -, -, e0, e1, -⟩ := index_facts t
  show V m c main_v4 (((cfg0.win 4).blk t).view.emb (ix2 (0 : Fin 1) j)) = _
  have hi : ((cfg0.win 4).blk t).view.emb (ix2 (0 : Fin 1) j) = ix2 (0 : Fin 1) (chan t j) := funext fun a => Fin.ext (by
    match a with
    | ⟨0, _⟩ => show win0_4.index t (0 : Fin 2) * 1 + 1 * 0 = 0; omega
    | ⟨1, _⟩ => show win0_4.index t (1 : Fin 2) * 256 + 1 * j.val = 256 * t.val + j.val; omega)
  rw [hi]
  exact (congrFun (bias_row m c) _).trans (vector_as_row_apply _ _ (chan t j))

end Cert.QuantLinear.Kernel

end
-- ==== Proof.Spec.lean ====
/-
  The mathematics of the quantized linear layer, with no program in sight.

  Inputs: activations `x` (8 × 4096 extended reals), integer weights `q` (11008 × 4096 words, read signed), a per-row
  scale `s` (11008 × 1), an integer per-row zero point `z` (11008 × 1) and a bias `b` (11008).  Writing `Q o k` and
  `Z o` for the integers as reals, the layer's output at token `p` and output channel `o` is

      refEntry  =  ∑ₖ x p k · ((Q o k − Z o) · s o)  +  b o                                  (dequantize, then contract)

  and the factored form computes

      facEntry  =  (∑ₖ x p k · Q o k  +  ∑ₖ (x p k − x p k) · Q o k) · s o  −  (∑ₖ x p k) · (Z o · s o)  +  b o

  (the second sum is the contraction of the residual of `x` against its own copy, which is zero for finite `x`; the
  subtracted term is the zero point pulled out of the contraction as a row sum of `x`).  Over the reals the two are
  equal by distributivity of the product over the sum and of the sum over the contraction index; on the extended reals
  distributivity fails at the infinities, so the law is stated for entries that are real numbers.
-/
import Idealize.ShloMosaic.PureOps.Ideal
import Idealize.ShloMosaic.Lib.ValueIdx

noncomputable section

namespace Cert.QuantLinear

open Idealize.ShloMosaic Idealize.ShloMosaic.ValueIdx

/-- A 32-bit word read as a signed integer, as an extended real. -/
abbrev intVal (w : BitVec 32) : EReal := ((w.toInt : ℝ) : EReal)

/-- A finite sum of real numbers, each seen as an extended real, is the real sum seen as an extended real. -/
theorem coe_sum {ι : Type*} (t : Finset ι) (f : ι → ℝ) : (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

/-- THE LAW, over any finite contraction index: with real entries, pulling the scale and the zero point out of the
    contraction (and adding the contraction of the zero residual `x − x`) changes nothing. -/
theorem factored_eq {ι : Type*} [Fintype ι] (x Q : ι → ℝ) (Z s b : ℝ) :
    ((∑ k, (x k : EReal) * (Q k : EReal)) + ∑ k, ((x k : EReal) - (x k : EReal)) * (Q k : EReal)) * (s : EReal)
        - (∑ k, (x k : EReal)) * ((Z : EReal) * (s : EReal)) + (b : EReal)
      = (∑ k, (x k : EReal) * (((Q k : EReal) - (Z : EReal)) * (s : EReal))) + (b : EReal) := by
  simp only [← EReal.coe_mul, ← EReal.coe_sub, ← EReal.coe_add, coe_sum]
  refine congrArg (fun r : ℝ => (r : EReal)) ?_
  have h0 : (∑ k, (x k - x k) * Q k) = 0 := Finset.sum_eq_zero fun k _ => by rw [sub_self, zero_mul]
  rw [h0, add_zero, Finset.sum_mul, Finset.sum_mul, ← Finset.sum_sub_distrib]
  refine congrArg (· + b) (Finset.sum_congr rfl fun k _ => ?_)
  ring

/-- The layer's output at token `p`, channel `o`: dequantize each weight, contract with `x`, add the bias. -/
def refEntry (x : (⟨2, ![8, 4096]⟩ : Shape).Idx → EReal) (q : (⟨2, ![11008, 4096]⟩ : Shape).Idx → BitVec 32)
    (s : (⟨2, ![11008, 1]⟩ : Shape).Idx → EReal) (z : (⟨2, ![11008, 1]⟩ : Shape).Idx → BitVec 32)
    (b : (⟨1, ![11008]⟩ : Shape).Idx → EReal) (p : Fin 8) (o : Fin 11008) : EReal :=
  (∑ k : Fin 4096, x (ix2 p k) * ((intVal (q (ix2 o k)) - intVal (z (ix2 o (0 : Fin 1)))) * s (ix2 o (0 : Fin 1)))) + b (ix1 o)

/-- The factored form at token `p`, channel `o`. -/
def facEntry (x : (⟨2, ![8, 4096]⟩ : Shape).Idx → EReal) (q : (⟨2, ![11008, 4096]⟩ : Shape).Idx → BitVec 32)
    (s : (⟨2, ![11008, 1]⟩ : Shape).Idx → EReal) (z : (⟨2, ![11008, 1]⟩ : Shape).Idx → BitVec 32)
    (b : (⟨1, ![11008]⟩ : Shape).Idx → EReal) (p : Fin 8) (o : Fin 11008) : EReal :=
  ((∑ k : Fin 4096, x (ix2 p k) * intVal (q (ix2 o k))) + ∑ k : Fin 4096, (x (ix2 p k) - x (ix2 p k)) * intVal (q (ix2 o k)))
      * s (ix2 o (0 : Fin 1))
    - (∑ k : Fin 4096, x (ix2 p k)) * (intVal (z (ix2 o (0 : Fin 1))) * s (ix2 o (0 : Fin 1))) + b (ix1 o)

/-- With every entry of `x`, `s` and `b` a real number, the factored form is the layer's output. -/
theorem facEntry_eq_refEntry (x : (⟨2, ![8, 4096]⟩ : Shape).Idx → EReal) (q : (⟨2, ![11008, 4096]⟩ : Shape).Idx → BitVec 32)
    (s : (⟨2, ![11008, 1]⟩ : Shape).Idx → EReal) (z : (⟨2, ![11008, 1]⟩ : Shape).Idx → BitVec 32)
    (b : (⟨1, ![11008]⟩ : Shape).Idx → EReal)
    (hx : ∀ i, ∃ r : ℝ, x i = (r : EReal)) (hs : ∀ i, ∃ r : ℝ, s i = (r : EReal)) (hb : ∀ i, ∃ r : ℝ, b i = (r : EReal))
    (p : Fin 8) (o : Fin 11008) : facEntry x q s z b p o = refEntry x q s z b p o := by
  choose xr hxr using hx
  choose sr hsr using hs
  choose br hbr using hb
  unfold facEntry refEntry
  simp only [hxr, hsr, hbr, intVal]
  exact factored_eq (fun k : Fin 4096 => xr (ix2 p k)) (fun k => ((q (ix2 o k)).toInt : ℝ)) _ _ _

end Cert.QuantLinear

end
-- ==== Proof.Payload.lean ====
/-
  The body's arithmetic read at an index, on the extended reals.

  The copy of `x` is `x` (a change of float format is the identity); the residual is `x − x` entry by entry; the row
  sums are `∑ₖ x p k`; and the output block at (token `p`, column `j` of the tile) is

      (∑ₖ hi p k · W j k  +  ∑ₖ lo p k · W j k) · scale j  −  rowsum p · zps j  +  bias j

  where `W j k` is the weight tile's integer at (j, k) as a real (both matrix products contract the 4096 input features,
  axis 1 of BOTH operands, into a zero accumulator), the three rows are broadcast along the 8 tokens and the row-sum
  column along the 256 columns.
-/
import proofs.«412487_j30313879175844_3_alg».proof.Proof.Gen.KernelIdeal.Skeleton
import proofs.«412487_j30313879175844_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.QuantLinear.Kernel

open Cert.KernelIdeal Cert.KernelIdeal.Gen Idealize.ShloMosaic Idealize.ShloMosaic.ValueIdx

/-! ## Layout operations of small shapes, read at an index -/

/-- A column `[a, 1]` broadcast along `b` columns reads, at `(p, c)`, the column at row `p`. -/
theorem broadcast_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, 0)`, the vector at `p`. -/
theorem cast_to_column_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_two, Shape.rowMajor_val_one]
    show p.val = p.val * 1 + 0
    omega)

/-! ## The contraction over the input features -/

theorem lhs_axis0 (i : S8x256.Idx) (q : dot_S8x4096_S256x4096_S8x256_1_1_0_0_n_n.contr.Idx) :
    (dot_S8x4096_S256x4096_S8x256_1_1_0_0_n_n.lhsIdx i q 0).val = (i 0).val := by
  unfold DotDims.lhsIdx
  rw [dif_neg (show ¬(0 : Fin S8x4096.rank) ∈ dot_S8x4096_S256x4096_S8x256_1_1_0_0_n_n.lhsBatch by decide), dif_pos (show (0 : Fin S8x4096.rank) ∈ dot_S8x4096_S256x4096_S8x256_1_1_0_0_n_n.lhsNonContracting by decide)]
  rfl
theorem lhs_axis1 (i : S8x256.Idx) (q : dot_S8x4096_S256x4096_S8x256_1_1_0_0_n_n.contr.Idx) :
    (dot_S8x4096_S256x4096_S8x256_1_1_0_0_n_n.lhsIdx i q 1).val = (q ⟨0, by decide⟩).val :=
  dot_S8x4096_S256x4096_S8x256_1_1_0_0_n_n.lhsIdx_val_of_single rfl i q
theorem rhs_axis0 (i : S8x256.Idx) (q : dot_S8x4096_S256x4096_S8x256_1_1_0_0_n_n.contr.Idx) :
    (dot_S8x4096_S256x4096_S8x256_1_1_0_0_n_n.rhsIdx i q 0).val = (i 1).val := by
  unfold DotDims.rhsIdx
  rw [dif_neg (show ¬(0 : Fin S256x4096.rank) ∈ dot_S8x4096_S256x4096_S8x256_1_1_0_0_n_n.rhsBatch by decide), dif_pos (show (0 : Fin S256x4096.rank) ∈ dot_S8x4096_S256x4096_S8x256_1_1_0_0_n_n.rhsNonContracting by decide)]
  rfl
theorem rhs_axis1 (i : S8x256.Idx) (q : dot_S8x4096_S256x4096_S8x256_1_1_0_0_n_n.contr.Idx) :
    (dot_S8x4096_S256x4096_S8x256_1_1_0_0_n_n.rhsIdx i q 1).val = (q ⟨0, by decide⟩).val :=
  dot_S8x4096_S256x4096_S8x256_1_1_0_0_n_n.rhsIdx_val_of_single rfl i q

/-- The matrix product into a zero accumulator, contracting axis 1 of both operands, at (p, j): `∑ₖ l p k · r j k`. -/
theorem contraction_apply (l : FVec Ideal S8x4096 .bf16) (r : FVec Ideal S256x4096 .bf16) (p : Fin 8) (j : Fin 256) :
    matmul dot_S8x4096_S256x4096_S8x256_1_1_0_0_n_n none l r (constant (F := Ideal) S8x256 .f32 0x00000000#32) (ix2 p j)
      = ∑ k : Fin 4096, l (ix2 p k) * r (ix2 j k) := by
  refine (Ideal.matmul_constant_zero_apply dot_S8x4096_S256x4096_S8x256_1_1_0_0_n_n none l r (ix2 p j)).trans ?_
  rw [← Equiv.sum_comp (ValueIdx.contrEquiv1 dot_S8x4096_S256x4096_S8x256_1_1_0_0_n_n 4096 rfl rfl).symm]
  refine Finset.sum_congr rfl fun k _ => ?_
  have hk := ValueIdx.contrEquiv1_symm_val dot_S8x4096_S256x4096_S8x256_1_1_0_0_n_n 4096 rfl rfl k
  have el : dot_S8x4096_S256x4096_S8x256_1_1_0_0_n_n.lhsIdx (ix2 p j) ((ValueIdx.contrEquiv1 dot_S8x4096_S256x4096_S8x256_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S8x4096_S256x4096_S8x256_1_1_0_0_n_n.rhsIdx (ix2 p j) ((ValueIdx.contrEquiv1 dot_S8x4096_S256x4096_S8x256_1_1_0_0_n_n 4096 rfl rfl).symm k) = ix2 j k := funext fun a => Fin.ext (by
    match a with
    | ⟨0, _⟩ => exact rhs_axis0 _ _
    | ⟨1, _⟩ => exact (rhs_axis1 _ _).trans hk)
  rw [el, er]

/-! ## The four payloads -/

/-- The copy of `x` is `x`. -/
theorem copy_apply (v : Vec Ideal S8x4096 .f32) (i : S8x4096.Idx) : k0_pay1 (F := Ideal) v i = v i := by
  unfold k0_pay1
  rw [shapeCast_self]
  rfl

/-- The residual of `x` against its copy is `x − x`. -/
theorem residual_apply (v : Vec Ideal S8x4096 .f32) (i : S8x4096.Idx) : k0_pay2 (F := Ideal) v i = v i - v i := by
  unfold k0_pay2
  rw [shapeCast_self]
  rfl

/-- The row-sum column at (p, 0) is `∑ₖ x p k`. -/
theorem rowsum_apply (v : Vec Ideal S8x4096 .f32) (p : Fin 8) :
    k0_pay3 (F := Ideal) v (ix2 p (0 : Fin 1)) = ∑ k : Fin 4096, v (ix2 p k) := by
  unfold k0_pay3
  dsimp only
  rw [shapeCast_self]
  refine (cast_to_column_apply _ shapeCasts_S8_S8x1 p).trans ?_
  refine (Ideal.multiReduction_add_single (φ := .f32) v 0x00000000#32 reduces_S8x4096_S8 (.inl rfl) rfl (ix1 p)).trans ?_
  refine Finset.sum_congr rfl fun k _ => congrArg v (funext fun a => Fin.ext ?_)
  match a with
  | ⟨0, _⟩ => rfl
  | ⟨1, _⟩ => rfl

/-- The output block at (token `p`, column `j`). -/
theorem block_apply (w : Vec Ideal S256x4096 .i32) (hi lo : FVec Ideal S8x4096 .bf16) (scale zps bias : FVec Ideal S1x256 .f32)
    (rs : FVec Ideal S8x1 .f32) (p : Fin 8) (j : Fin 256) :
    k0_pay4 (F := Ideal) w hi lo scale rs zps bias (ix2 p j)
      = ((∑ k : Fin 4096, hi (ix2 p k) * Cert.QuantLinear.intVal (w (ix2 j k)))
          + ∑ k : Fin 4096, lo (ix2 p k) * Cert.QuantLinear.intVal (w (ix2 j k))) * scale (ix2 (0 : Fin 1) j)
        - rs (ix2 p (0 : Fin 1)) * zps (ix2 (0 : Fin 1) j) + bias (ix2 (0 : Fin 1) j) := by
  have e1 := contraction_apply hi (sitofp .bf16 w) p j
  have e2 := contraction_apply lo (sitofp .bf16 w) p j
  have r1 : broadcastTo S8x256 (shapeCast S1x256 scale shapeCasts_S1x256_S1x256) broadcasts_S1x256_S8x256 (ix2 p j) = scale (ix2 (0 : Fin 1) j) := by
    rw [shapeCast_self]; exact broadcastTo_1b_ab_apply scale _ p j
  have r2 : broadcastTo S8x256 (shapeCast S1x256 zps shapeCasts_S1x256_S1x256) broadcasts_S1x256_S8x256 (ix2 p j) = zps (ix2 (0 : Fin 1) j) := by
    rw [shapeCast_self]; exact broadcastTo_1b_ab_apply zps _ p j
  have r3 : broadcastTo S8x256 (shapeCast S1x256 bias shapeCasts_S1x256_S1x256) broadcasts_S1x256_S8x256 (ix2 p j) = bias (ix2 (0 : Fin 1) j) := by
    rw [shapeCast_self]; exact broadcastTo_1b_ab_apply bias _ p j
  have c1 : broadcastTo S8x256 rs broadcasts_S8x1_S8x256 (ix2 p j) = rs (ix2 p (0 : Fin 1)) := broadcast_column_apply rs _ p j
  unfold k0_pay4
  simp only [addf_apply, subf_apply, mulf_apply]
  rw [e1, e2, r1, r2, r3, c1]
  rfl

end Cert.QuantLinear.Kernel

end
-- ==== Proof.Blocks.lean ====
/-
  From blocks to the array: after the run the result array holds the factored form at every (token, channel).

  Point `t` writes back the 8 × 256 block of columns `256·t … 256·t + 255`; the 43 blocks tile the 8 × 11008 result,
  the block that holds channel `o` being the one of point `o / 256`.  What point `t` writes at (token `p`, column `j`)
  is the output payload of its own weight tile and row blocks over the scratch values of the first point, which entry
  by entry is the factored form at (p, 256·t + j).
-/
import proofs.«412487_j30313879175844_3_alg».proof.Proof.Reads
import proofs.«412487_j30313879175844_3_alg».proof.Proof.Payload
import proofs.«412487_j30313879175844_3_alg».proof.Proof.Gen.KernelIdeal.Value

noncomputable section

namespace Cert.QuantLinear.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The five argument arrays as launched, each at its literal type. -/
abbrev xArr (c : Dev nD) : FVec Ideal S8x4096 .f32 := m ((c : Thread nD τ).loc main_arg0)
abbrev qArr (c : Dev nD) : IVec S11008x4096 32 := m ((c : Thread nD τ).loc main_arg1)
abbrev sArr (c : Dev nD) : FVec Ideal S11008x1 .f32 := m ((c : Thread nD τ).loc main_arg2)
abbrev zArr (c : Dev nD) : IVec S11008x1 32 := m ((c : Thread nD τ).loc main_arg3)
abbrev bArr (c : Dev nD) : FVec Ideal S11008 .f32 := m ((c : Thread nD τ).loc main_arg4)

/-- The result array: the factored form of the launch contents of the five arguments, at every (token, channel). -/
def result (c : Dev nD) : Buf (Elt Ideal) ((c : Thread nD τ).loc main_v5) := fun i =>
  Cert.QuantLinear.facEntry (xArr m c) (qArr m c) (sArr m c) (zArr m c) (bArr m c) (i 0) (i 1)

/-! ## The scratch values and the blocks, entry by entry, in terms of the argument arrays -/

theorem hi_entry (c : Dev nD) (p : Fin 8) (k : Fin 4096) :
    k0_pay1 (F := Ideal) (actBlk m c firstPt) (ix2 p k) = xArr m c (ix2 p k) :=
  (copy_apply _ _).trans (act_read m c firstPt p k)

theorem lo_entry (c : Dev nD) (p : Fin 8) (k : Fin 4096) :
    k0_pay2 (F := Ideal) (actBlk m c firstPt) (ix2 p k) = xArr m c (ix2 p k) - xArr m c (ix2 p k) :=
  (residual_apply _ _).trans (congrArg₂ (· - ·) (act_read m c firstPt p k) (act_read m c firstPt p k))

theorem rs_entry (c : Dev nD) (p : Fin 8) :
    k0_pay3 (F := Ideal) (actBlk m c firstPt) (ix2 p (0 : Fin 1)) = ∑ k : Fin 4096, xArr m c (ix2 p k) :=
  (rowsum_apply _ p).trans (Finset.sum_congr rfl fun k _ => act_read m c firstPt p k)

theorem w_entry (c : Dev nD) (t : Fin cfg0.N) (j : Fin 256) (k : Fin 4096) :
    Cert.QuantLinear.intVal (wgtBlk m c t (ix2 j k)) = Cert.QuantLinear.intVal (qArr m c (ix2 (chan t j) k)) :=
  congrArg Cert.QuantLinear.intVal (wgt_read m c t j k)

theorem s_entry (c : Dev nD) (t : Fin cfg0.N) (j : Fin 256) :
    sclBlk m c t (ix2 (0 : Fin 1) j) = sArr m c (ix2 (chan t j) (0 : Fin 1)) := scl_read m c t j

theorem zs_entry (c : Dev nD) (t : Fin cfg0.N) (j : Fin 256) :
    zpsBlk m c t (ix2 (0 : Fin 1) j)
      = Cert.QuantLinear.intVal (zArr m c (ix2 (chan t j) (0 : Fin 1))) * sArr m c (ix2 (chan t j) (0 : Fin 1)) := zps_read m c t j

theorem b_entry (c : Dev nD) (t : Fin cfg0.N) (j : Fin 256) :
    biaBlk m c t (ix2 (0 : Fin 1) j) = bArr m c (ix1 (chan t j)) := bia_read m c t j

/-! ## What a point writes back -/

/-- The output payload of point `t` at (token `p`, column `j`) is the factored form at (p, 256·t + j). -/
theorem payload_eq_factored (c : Dev nD) (t : Fin cfg0.N) (p : Fin 8) (j : Fin 256) :
    k0_pay4 (F := Ideal) (wgtBlk m c t) (k0_pay1 (actBlk m c firstPt)) (k0_pay2 (actBlk m c firstPt)) (sclBlk m c t)
        (k0_pay3 (actBlk m c firstPt)) (zpsBlk m c t) (biaBlk m c t) (ix2 p j)
      = Cert.QuantLinear.facEntry (xArr m c) (qArr m c) (sArr m c) (zArr m c) (bArr m c) p (chan t j) := by
  refine (block_apply (wgtBlk m c t) (k0_pay1 (actBlk m c firstPt)) (k0_pay2 (actBlk m c firstPt)) (sclBlk m c t) (zpsBlk m c t)
    (biaBlk m c t) (k0_pay3 (actBlk m c firstPt)) p j).trans ?_
  unfold Cert.QuantLinear.facEntry
  rw [rs_entry m c p, s_entry m c t j, zs_entry m c t j, b_entry m c t j]
  have h1 : (∑ k : Fin 4096, k0_pay1 (F := Ideal) (actBlk m c firstPt) (ix2 p k) * Cert.QuantLinear.intVal (wgtBlk m c t (ix2 j k)))
      = ∑ k : Fin 4096, xArr m c (ix2 p k) * Cert.QuantLinear.intVal (qArr m c (ix2 (chan t j) k)) :=
    Finset.sum_congr rfl fun k _ => congrArg₂ (· * ·) (hi_entry m c p k) (w_entry m c t j k)
  have h2 : (∑ k : Fin 4096, k0_pay2 (F := Ideal) (actBlk m c firstPt) (ix2 p k) * Cert.QuantLinear.intVal (wgtBlk m c t (ix2 j k)))
      = ∑ k : Fin 4096, (xArr m c (ix2 p k) - xArr m c (ix2 p k)) * Cert.QuantLinear.intVal (qArr m c (ix2 (chan t j) k)) :=
    Finset.sum_congr rfl fun k _ => congrArg₂ (· * ·) (lo_entry m c p k) (w_entry m c t j k)
  rw [h1, h2]

/-- Point `t` writes back block `t` of the result array. -/
theorem flushed_eq (c : Dev nD) (t : Fin cfg0.N) :
    (dats m 0 c).flushed 5 t = ((cfg0.win 5).blk t).view.read (Elt Ideal) (result m c) := by
  obtain ⟨-, -, -, -, -, -, -, -, -, -, e0, e1⟩ := index_facts t
  rw [Cert.KernelIdeal.Value.flushed5, contents_eq m c t.val t.isLt]
  funext y
  obtain ⟨p, j, rfl⟩ : ∃ (p : Fin 8) (j : Fin 256), y = ix2 p j := ⟨y 0, y 1, eq_ix2 y⟩
  have hi : ((cfg0.win 5).blk t).view.emb (ix2 p j) = ix2 p (chan t j) := funext fun a => Fin.ext (by
    match a with
    | ⟨0, _⟩ => show win0_5.index t (0 : Fin 2) * 8 + 1 * p.val = p.val; omega
    | ⟨1, _⟩ => show win0_5.index t (1 : Fin 2) * 256 + 1 * j.val = 256 * t.val + j.val; omega)
  show k0_pay4 (F := Ideal) (wgtBlk m c t) (k0_pay1 (actBlk m c firstPt)) (k0_pay2 (actBlk m c firstPt)) (sclBlk m c t)
      (k0_pay3 (actBlk m c firstPt)) (zpsBlk m c t) (biaBlk m c t) (ix2 p j)
    = result m c (((cfg0.win 5).blk t).view.emb (ix2 p j))
  rw [hi]
  exact payload_eq_factored m c t p j

/-! ## The blocks tile the array -/

/-- An index is in point `t`'s block iff each coordinate is in the block's range on its axis. -/
theorem mem_block (t : Fin cfg0.N) (i : S8x11008.Idx) :
    i ∈ ((cfg0.win 5).blk t).view.set
      ↔ ∀ a : Fin 2, win0_5.index t a * S8x256.size a ≤ (i a).val ∧ (i a).val < win0_5.index t a * S8x256.size a + S8x256.size a := by
  show i ∈ ((View.whole main_v5).slice (win0_5.rect t)).set ↔ _
  rw [View.set_slice_whole, Rect.mem_set_unit]
  exact Iff.rfl

/-- Every index of the result array is in the block of the point its channel divided by 256 names. -/
theorem covered (i : S8x11008.Idx) : ∃ t : Fin cfg0.N, (cfg0.win 5).flush t = true ∧ i ∈ ((cfg0.win 5).blk t).view.set := by
  have hN : cfg0.N = 43 := N_0
  have h0 : (i 0).val < 8 := (i 0).isLt
  have h1 : (i 1).val < 11008 := (i 1).isLt
  have ht : (i 1).val / 256 < cfg0.N := by rw [hN]; omega
  obtain ⟨-, -, -, -, -, -, -, -, -, -, e0, e1⟩ := index_facts ⟨(i 1).val / 256, ht⟩
  refine ⟨⟨(i 1).val / 256, ht⟩, flush0_5 _, ?_⟩
  rw [mem_block]
  intro a
  match a with
  | ⟨0, _⟩ =>
    show win0_5.index ⟨(i 1).val / 256, ht⟩ (0 : Fin 2) * 8 ≤ (i 0).val ∧ (i 0).val < win0_5.index ⟨(i 1).val / 256, ht⟩ (0 : Fin 2) * 8 + 8
    omega
  | ⟨1, _⟩ =>
    show win0_5.index ⟨(i 1).val / 256, ht⟩ (1 : Fin 2) * 256 ≤ (i 1).val ∧ (i 1).val < win0_5.index ⟨(i 1).val / 256, ht⟩ (1 : Fin 2) * 256 + 256
    have e1' : win0_5.index ⟨(i 1).val / 256, ht⟩ (1 : Fin 2) = (i 1).val / 256 := e1
    omega

/-- The result array after the run. -/
theorem final (c : Dev nD) : (dats m 0 c).arrAt 5 cfg0.N = result m c :=
  (dats m 0 c).arrAt_eq_of_cover 5 (result m c) (fun t _ => flushed_eq m c t) covered

/-- The kernel's run: every weakly fair execution ends with the result array at `result` and the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.QuantLinear.Kernel

end
-- ==== Proof.RefRead.lean ====
/-
  The reference computes the layer: its result, read index by index through its ten operations (two integer-to-float
  conversions, two broadcasts of a column along the rows, a subtraction, a product, the contraction over the 4096 input
  features, the bias broadcast along the tokens, the final sum), is `refEntry` at every (token, channel).
-/
import proofs.«412487_j30313879175844_3_alg».proof.Proof.Gen.ReferenceIdeal.Read
import proofs.«412487_j30313879175844_3_alg».proof.Proof.Spec

noncomputable section

namespace Cert.QuantLinear.Ref

open Cert.ReferenceIdeal Cert.ReferenceIdeal.Read Idealize.ShloMosaic Idealize.ShloMosaic.ValueIdx

/-- The reference's last stage at an index is the layer's output there. -/
theorem stage_eq_layer (x0 : (⟨S8x4096, .f32⟩ : BufTy).Contents (Elt Ideal)) (x1 : (⟨S11008x4096, .i32⟩ : BufTy).Contents (Elt Ideal))
    (x2 : (⟨S11008x1, .f32⟩ : BufTy).Contents (Elt Ideal)) (x3 : (⟨S11008x1, .i32⟩ : BufTy).Contents (Elt Ideal))
    (x4 : (⟨S11008, .f32⟩ : BufTy).Contents (Elt Ideal)) :
    val_main_v9 (F := Ideal) x0 x1 x2 x3 x4 = fun i => Cert.QuantLinear.refEntry x0 x1 x2 x3 x4 (i 0) (i 1) := by
  funext i
  obtain ⟨p, o, rfl⟩ : ∃ (p : Fin 8) (o : Fin 11008), i = ix2 p o := ⟨i 0, i 1, eq_ix2 i⟩
  show val_main_v9 (F := Ideal) x0 x1 x2 x3 x4 (ix2 p o) = Cert.QuantLinear.refEntry x0 x1 x2 x3 x4 p o
  -- the contraction reads x at (token, k) and the dequantized weight at (channel, k)
  have el : ∀ k : Fin 4096, lidx_main_v6 (ix2 p o) k = ix2 p k := fun k =>
    funext fun a => Fin.ext (by match a with | ⟨0, _⟩ => rfl | ⟨1, _⟩ => rfl)
  have er : ∀ k : Fin 4096, ridx_main_v6 (ix2 p o) k = ix2 o k := fun k =>
    funext fun a => Fin.ext (by match a with | ⟨0, _⟩ => rfl | ⟨1, _⟩ => rfl)
  -- a column broadcast along the row reads the column at (channel, 0)
  have e2 : ∀ k : Fin 4096, idx_main_v2 (ix2 o k) = ix2 o (0 : Fin 1) := fun k =>
    funext fun a => Fin.ext (by match a with | ⟨0, _⟩ => rfl | ⟨1, _⟩ => rfl)
  have e4 : ∀ k : Fin 4096, idx_main_v4 (ix2 o k) = ix2 o (0 : Fin 1) := fun k =>
    funext fun a => Fin.ext (by match a with | ⟨0, _⟩ => rfl | ⟨1, _⟩ => rfl)
  -- the bias broadcast along the tokens reads the bias at the channel
  have e7 : idx_main_v7 (idx_main_v8 (ix2 p o)) = ix1 o :=
    funext fun a => Fin.ext (by match a with | ⟨0, _⟩ => rfl)
  rw [val_main_v9_apply, val_main_v6_apply, val_main_v8_apply, val_main_v7_apply, e7]
  unfold Cert.QuantLinear.refEntry
  refine congrArg (· + x4 (ix1 o)) (Finset.sum_congr rfl fun k _ => ?_)
  rw [el, er, val_main_v5_apply, val_main_v3_apply, val_main_v0_apply, val_main_v2_apply, val_main_v1_apply,
    val_main_v4_apply, e2, e4]
  rfl

end Cert.QuantLinear.Ref

end
-- ==== Proof.Finite.lean ====
/-
  What the precondition gives: every float input is finite.

  The precondition tests `|v| < +∞` at every entry of the activations, the scales and the bias (the two integer
  inputs need no test) and takes the conjunction.  On the extended reals `|v| = max v (−v)`, and `max v (−v) < ⊤`
  rules out both infinities, so each such entry is a real number.
-/
import proofs.«412487_j30313879175844_3_alg».proof.Pre_finite_inputs
import proofs.«412487_j30313879175844_3_alg».proof.Proof.Gen.Pre_finite_inputs
import Idealize.ShloMosaic.Lib.ReduceAll
import Idealize.ShloMosaic.Lib.ValueIdx
import Idealize.ShloMosaic.PureOps.Ideal.Laws

noncomputable section

namespace Cert.QuantLinear.Finite

open Cert.Pre_finite_inputs Idealize.ShloMosaic

/-- The rank-0 shape has one index. -/
instance : Subsingleton S_.Idx := ⟨fun a b => funext fun d => d.elim0⟩

/-- The word `0x7F800000` is `+∞`. -/
theorem inf_word : Ideal.ofBits .f32 0x7F800000#32 = ⊤ := by simp [Ideal.ofBits, Ideal.ieee]

/-- An extended real whose absolute value is below `+∞` is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [Ideal.cmpf_def, Ideal.hostAbsf_def, Ideal.absf_def, inf_word] at h
  have hlt : max x (-x) < ⊤ :=
    of_decide_eq_true ((by decide : ∀ b : Bool, BitVec.ofBool b = 1#1 → b = true) _ h)
  induction x using EReal.rec with
  | bot => simp at hlt
  | coe r => exact ⟨r, rfl⟩
  | top => simp at hlt

/-- Under the precondition the activations, the scales and the bias are arrays of real numbers. -/
theorem reals_of_pre (x0 : FVec Ideal S8x4096 .f32) (x1 : IVec S11008x4096 32) (x2 : FVec Ideal S11008x1 .f32)
    (x3 : IVec S11008x1 32) (x4 : FVec Ideal S11008 .f32)
    (h : fn (F := Ideal) x0 x1 x2 x3 x4 = fun _ => 1#1) :
    (∀ i, ∃ r : ℝ, x0 i = (r : EReal)) ∧ (∀ i, ∃ r : ℝ, x2 i = (r : EReal)) ∧ (∀ i, ∃ r : ℝ, x4 i = (r : EReal)) := by
  have h0 := congrFun h ValueIdx.ix0
  dsimp only [fn] at h0
  obtain ⟨h01, h2⟩ := IntOp.andi_eq_one.1 h0
  obtain ⟨h0', h1⟩ := IntOp.andi_eq_one.1 h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i)⟩

end Cert.QuantLinear.Finite

end
-- ==== Proof.lean ====
/-
  A quantized linear layer, computed two ways, is one function of its inputs over the reals.

  The layer maps activations `x` (8 × 4096), integer weights `q` (11008 × 4096), per-channel scales `s`, integer
  per-channel zero points `z` and a bias `b` to

      out p o  =  ∑ₖ x p k · ((q o k − z o) · s o)  +  b o .

  The reference dequantizes every weight and contracts.  The kernel walks the 11008 channels in 43 tiles of 256; at the
  first tile it keeps, in buffers that persist across tiles, a copy of `x`, the residual `x − copy` and the row sums
  `∑ₖ x p k`; at every tile it contracts the copy and the residual with the tile's integer weights, adds the two
  products, scales by `s o`, subtracts row sum · (z o · s o) and adds `b o`.  With exact arithmetic the copy is `x`
  and the residual is zero, and for finite inputs the two expressions agree by distributivity (Proof/Spec.lean).

  The modules: Spec (the two forms and the law between them), RefRead (the reference computes the first form), Pieces and
  Carried (what the persistent buffers and the output tile hold after each tile: filled once, then only read), Payload
  (the tile's arithmetic at an index), Reads (each tile's inputs as entries of the argument arrays), Blocks (the 43
  tiles assemble the second form over the whole result), Finite (the precondition makes the float inputs real numbers).
  The frames of the two kernel programs, the reference's run and the per-tile value statements are the generated
  modules' (Proof/Gen/).
-/
import proofs.«412487_j30313879175844_3_alg».proof.Defs
import proofs.«412487_j30313879175844_3_alg».proof.Proof.Gen.Kernel
import proofs.«412487_j30313879175844_3_alg».proof.Proof.Gen.Kernel.Skeleton
import proofs.«412487_j30313879175844_3_alg».proof.Proof.Gen.Kernel.Launch
import proofs.«412487_j30313879175844_3_alg».proof.Proof.Gen.Kernel.Points
import proofs.«412487_j30313879175844_3_alg».proof.Proof.Gen.Kernel.Frame
import proofs.«412487_j30313879175844_3_alg».proof.Proof.Gen.KernelIdeal
import proofs.«412487_j30313879175844_3_alg».proof.Proof.Gen.KernelIdeal.Skeleton
import proofs.«412487_j30313879175844_3_alg».proof.Proof.Gen.KernelIdeal.Launch
import proofs.«412487_j30313879175844_3_alg».proof.Proof.Gen.KernelIdeal.Points
import proofs.«412487_j30313879175844_3_alg».proof.Proof.Gen.KernelIdeal.Frame
import proofs.«412487_j30313879175844_3_alg».proof.Proof.Gen.ReferenceIdeal
import proofs.«412487_j30313879175844_3_alg».proof.Proof.Gen.KernelIdeal.Value
import proofs.«412487_j30313879175844_3_alg».proof.Proof.Gen.ReferenceIdeal.Run
import proofs.«412487_j30313879175844_3_alg».proof.Proof.Gen.ReferenceIdeal.Read
import proofs.«412487_j30313879175844_3_alg».proof.Proof.Gen.Pre_finite_inputs
import proofs.«412487_j30313879175844_3_alg».proof.Proof.Blocks
import proofs.«412487_j30313879175844_3_alg».proof.Proof.RefRead
import proofs.«412487_j30313879175844_3_alg».proof.Proof.Finite
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: narrowing the activations to the 16-bit format and widening them back is the
    identity on the extended reals, and at the word level the rounding through that format. -/
theorem preserves : Cert.preserves_Kernel_KernelIdeal :=
  IdealRules.truncf_extf.statement Cert.KernelIdeal.S8x4096 .f32 .bf16

/-- On the extended reals, from memories that agree on the five arguments and satisfy the precondition, the kernel's
    result array is the factored form and the reference's the dequantize-then-contract form, at every (token,
    channel); the float inputs being real numbers, the two are equal. -/
theorem algebraic : Cert.algebraic_KernelIdeal_ReferenceIdeal := by
  intro m ρ m' ρ' hpre hagree
  refine ⟨fun c => Cert.QuantLinear.Kernel.result m c, Cert.QuantLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.QuantLinear.Ref.stage_eq_layer, (hagree c).1, (hagree c).2.1,
    (hagree c).2.2.1, (hagree c).2.2.2.1, (hagree c).2.2.2.2]
  obtain ⟨hx, hs, hb⟩ := Cert.QuantLinear.Finite.reals_of_pre _ _ _ _ _ (hpre c)
  funext i
  exact (Cert.QuantLinear.facEntry_eq_refEntry _ _ _ _ _ hx hs hb (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
